-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S_ : Shape := ⟨0, ![]⟩

class Facts : Prop where
  bcast_S_S1000000x128 : S_.BroadcastsInDim S1000000x128 (![] : Fin 0 → Fin S1000000x128.rank)
  reducesTo_S1000000x128_S_d0_1 : S1000000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1000000x128 .f32) (main_arg1 : IVec S1000000 32) (main_arg2 : FVec F S128x128 .f32) (main_arg3 : FVec F S128 .f32) (main_arg4 : FVec F S128 .f32) (main_arg5 : FVec F S128 .f32) : IVec S_ 1 :=
  let main_v0 : FVec F S1000000x128 .f32 := Host.absf main_arg0
  let main_cst : FVec F S_ .f32 := constant S_ .f32 0x7F800000#32
  let main_v1 : FVec F S1000000x128 .f32 := broadcastInDim S1000000x128 ![] bcast_S_S1000000x128 main_cst
  let main_v2 : IVec S1000000x128 1 := cmpf .olt main_v0 main_v1
  let main_c : IVec S_ 1 := constantI S_ 1 1#1
  let main_v3 : IVec S_ 1 := (fun x v => Host.reduce IntOp.andi x v reducesTo_S1000000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_v13 main_v16
-- ==== Kernel.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 11
  | .vmem => 8
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .bf16⟩
  | .hbm, ⟨7, _⟩ => ⟨S1x128, .f32⟩
  | .hbm, ⟨8, _⟩ => ⟨S1x128, .f32⟩
  | .hbm, ⟨9, _⟩ => ⟨S1x128, .f32⟩
  | .hbm, ⟨10, _⟩ => ⟨S1000000x128, .f32⟩
  | .local _ .vmem, ⟨0, _⟩ => ⟨S5000x128, .f32⟩
  | .local _ .vmem, ⟨1, _⟩ => ⟨S5000x128, .f32⟩
  | .local _ .vmem, ⟨2, _⟩ => ⟨S128x128, .bf16⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S1000000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S1000000x128.size a
  hwx0_0 : ∀ i : grid0.Coords, EltTy.bits .f32 = 32 ∨ (Rect.block (s := S1000000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S1000000x128.size a
  hwx0_5 : ∀ i : grid0.Coords, EltTy.bits .f32 = 32 ∨ (Rect.block (s := S1000000x128) S5000x128.size (cc0_transform_5 i) (hinb0_5 i)).WholeWords (EltTy.packing .f32)

variable [Facts₀]

def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S1000000x128 : Shape := ⟨2, ![1000000, 128]⟩
abbrev S1000000 : Shape := ⟨1, ![1000000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1000000x1 : Shape := ⟨2, ![1000000, 1]⟩

abbrev nBuf : Space → Nat
  | .hbm => 46
  | .vmem => 0
  | .smem => 0
  | _ => 0

abbrev bufTy : (tb : Table) → Fin (tcTables nBuf tb) → BufTy
  | .hbm, ⟨0, _⟩ => ⟨S1000000x128, .f32⟩
  | .hbm, ⟨1, _⟩ => ⟨S1000000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S1000000x128, .f32⟩
  | .hbm, ⟨7, _⟩ => ⟨S1x128, .f32⟩
  | .hbm, ⟨8, _⟩ => ⟨S1000000x128, .f32⟩
  | .hbm, ⟨9, _⟩ => ⟨S1000000x128, .f32⟩
  | .hbm, ⟨10, _⟩ => ⟨S_, .f32⟩
  | .hbm, ⟨11, _⟩ => ⟨S1000000, .f32⟩
  | .hbm, ⟨12, _⟩ => ⟨S1000000x1, .f32⟩
  | .hbm, ⟨13, _⟩ => ⟨S_, .f32⟩
  | .hbm, ⟨14, _⟩ => ⟨S1000000x1, .f32⟩
  | .hbm, ⟨15, _⟩ => ⟨S1000000x1, .f32⟩
  | .hbm, ⟨16, _⟩ => ⟨S1000000x128, .f32⟩
  | .hbm, ⟨17, _⟩ => ⟨S1000000x128, .f32⟩
  | .hbm, ⟨18, _⟩ => ⟨S1000000x128, .f32⟩
  | .hbm, ⟨19, _⟩ => ⟨S_, .f32⟩
  | .hbm, ⟨20, _⟩ => ⟨S1000000, .f32⟩
  | .hbm, ⟨21, _⟩ => ⟨S1000000x1, .f32⟩
  | .hbm, ⟨22, _⟩ => ⟨S_, .f32⟩
  | .hbm, ⟨23, _⟩ => ⟨S1000000x1, .f32⟩
  | .hbm, ⟨24, _⟩ => ⟨S1000000x1, .f32⟩
  | .hbm, ⟨25, _⟩ => ⟨S1000000x128, .f32⟩
  | .hbm, ⟨26, _⟩ => ⟨S1000000x128, .f32⟩
  | .hbm, ⟨27, _⟩ => ⟨S_, .f32⟩
  | .hbm, ⟨28, _⟩ => ⟨S1000000x1, .f32⟩
  | .hbm, ⟨29, _⟩ => ⟨S1000000x1, .f32⟩
  | .hbm, ⟨30, _⟩ => ⟨S1000000x1, .f32⟩
  | .hbm, ⟨31, _⟩ => ⟨S1000000x128, .f32⟩
  | .hbm, ⟨32, _⟩ => ⟨S1000000x128, .f32⟩
  | .hbm, ⟨33, _⟩ => ⟨S1x128, .f32⟩
  | .hbm, ⟨34, _⟩ => ⟨S1000000x128, .f32⟩
  | .hbm, ⟨35, _⟩ => ⟨S1000000x128, .f32⟩
  | .hbm, ⟨36, _⟩ => ⟨S1x128, .f32⟩
  | .hbm, ⟨37, _⟩ => ⟨S1000000x128, .f32⟩
  | .hbm, ⟨38, _⟩ => ⟨S1000000x128, .f32⟩
  | .hbm, ⟨39, _⟩ => ⟨S_, .f32⟩
  | .hbm, ⟨40, _⟩ => ⟨S1000000x128, .f32⟩
  | .hbm, ⟨41, _⟩ => ⟨S1000000x128, .i1⟩
  | .hbm, ⟨42, _⟩ => ⟨S_, .f32⟩
  | .hbm, ⟨43, _⟩ => ⟨S1000000x128, .f32⟩
  | .hbm, ⟨44, _⟩ => ⟨S1000000x128, .f32⟩
  | .hbm, ⟨45, _⟩ => ⟨S1000000x128, .f32⟩
  | _, _ => ⟨S1000000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S1000000x128_0_1 : S1x128.BroadcastsInDim S1000000x128 (![0, 1] : Fin 2 → Fin S1000000x128.rank)
  reducesTo_S1000000x128_S1000000_d1 : S1000000x128.ReducesTo [1] S1000000
  h_S_ : 0 < S_.numel
  bcast_S1000000_S1000000x1_0 : S1000000.BroadcastsInDim S1000000x1 (![0] : Fin 1 → Fin S1000000x1.rank)
  bcast_S_S1000000x1 : S_.BroadcastsInDim S1000000x1 (![] : Fin 0 → Fin S1000000x1.rank)
  bcast_S1000000x1_S1000000x128_0_1 : S1000000x1.BroadcastsInDim S1000000x128 (![0, 1] : Fin 2 → Fin S1000000x128.rank)
  bcast_S_S1000000x128 : S_.BroadcastsInDim S1000000x128 (![] : Fin 0 → Fin S1000000x128.rank)
  dot_S1000000x128_S128x128_S1000000x128_1_1_0_0_n_n_wf : DotDims.WF S1000000x128 S128x128 S1000000x128 [1] [1] [0] [0] [] []

variable [Facts₀]

def dot_S1000000x128_S128x128_S1000000x128_1_1_0_0_n_n : DotDims S1000000x128 S128x128 S1000000x128 where
  lhsContracting := [1]
  rhsContracting := [1]
  lhsNonContracting := [0]
  rhsNonContracting := [0]
  lhsBatch := []
  rhsBatch := []
  wf := dot_S1000000x128_S128x128_S1000000x128_1_1_0_0_n_n_wf

class Facts : Prop extends Facts₀ where

variable [Facts]
-- ==== Proof.LibTransposedRhsDot.lean ====
/-
  A matrix product against a transposed right operand, read at an entry, at the ideal instance.

  For a left operand [M, K] and a right operand [N, K] contracted on the LAST axis of both (the dimension record
  `DotDims.transposedRhs M K N`: no batch axis, the left rows first in the result, then the right rows), the
  product accumulated into the zero array holds at entry (i, j) the sum over k of l[i, k] · r[j, k]: the
  extended reals' sum and product, the zero accumulator's word being the real 0. The operand indices the record
  computes at a result index and a contraction position are read off coordinate by coordinate: the left one is
  (i, k), the right one (j, k); the contraction positions, a rank-1 index set of K entries, are renumbered by Fin K.
  Stated for any record EQUAL to `transposedRhs M K N`, so that a program's own record, whose fields are these
  lists, is used through `rfl`.
-/
import Idealize.ShloMosaic.PureOps.Ideal.Laws
import Idealize.ShloMosaic.Lib.ValueIdx

noncomputable section

namespace Idealize.ShloMosaic.TransposedRhsDot

open Idealize.ShloMosaic Idealize.ShloMosaic.ValueIdx

variable {M K N : Nat}

/-- The left operand's row is the result's row. -/
theorem lhs_0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.2 rfl)]
  rfl

/-- The left operand's column is the contraction position. -/
theorem lhs_1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q

/-- The right operand's row is the result's column. -/
theorem rhs_0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.2 rfl)]
  rfl

/-- The right operand's column is the contraction position. -/
theorem rhs_1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- A `tpu.matmul` into the zero accumulator, its record `transposedRhs M K N`, at entry `j`: the sum over `k` of
    the left operand at (j 0, k) times the right operand at (j 1, k). -/
theorem matmul_zero_apply {φ₁ φ₂ : FTy} (d : DotDims ⟨2, ![M, K]⟩ ⟨2, ![N, K]⟩ ⟨2, ![M, N]⟩)
    (hd : d = DotDims.transposedRhs M K N) (prec : Option ContractPrecision)
    (l : FVec Ideal ⟨2, ![M, K]⟩ φ₁) (r : FVec Ideal ⟨2, ![N, K]⟩ φ₂) (j : (⟨2, ![M, N]⟩ : Shape).Idx) :
    FloatOps.matmul d prec l r (constant (F := Ideal) ⟨2, ![M, N]⟩ .f32 0x00000000#32) j
      = ∑ k : Fin K, l (ix2 (j 0) k) * r (ix2 (j 1) k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx j ((contrEquiv1 (DotDims.transposedRhs M K N) K rfl rfl).symm k) = ix2 (j 0) k :=
    funext fun a => Fin.ext (by
      match a with
      | ⟨0, _⟩ => exact lhs_0 _ _
      | ⟨1, _⟩ => exact (lhs_1 _ _).trans hk)
  have er : (DotDims.transposedRhs M K N).rhsIdx j ((contrEquiv1 (DotDims.transposedRhs M K N) K rfl rfl).symm k) = ix2 (j 1) k :=
    funext fun a => Fin.ext (by
      match a with
      | ⟨0, _⟩ => exact rhs_0 _ _
      | ⟨1, _⟩ => exact (rhs_1 _ _).trans hk)
  rw [el, er]
  rfl

end Idealize.ShloMosaic.TransposedRhsDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.RowNorm.lean ====
/-
  One row through an affine map, a normalisation over the row and a leaky rectifier, on the extended reals.

  A row `xr` of 128 entries is sent to `h o = (∑ k, xr k · W o k) + b o` (the weight matrix is read by its ROWS:
  entry `o` of the image contracts `xr` with row `o` of `W`); the image is centred on its mean `(∑ o, h o) / 128`,
  scaled by the reciprocal square root of the centred row's mean square plus a small constant, multiplied entry by
  entry by `g`, shifted by `be`, and every entry `l` that is not `≥ 0` is replaced by `slope · l`. The three float
  constants stay the words the programs spell them with (128, the small constant, the slope, and the zero the
  rectifier compares with): both programs carry the same words, so none is ever evaluated.

  `rows` is the same map applied to every row of a two-axis array: entry (n, o) of the result depends on row `n` of
  the array, on the whole of `W`, and on entry `o` of `b`, `g` and `be`.
-/
import Idealize.ShloMosaic.PureOps.Ideal
import Idealize.ShloMosaic.Lib.ValueIdx

noncomputable section

namespace Cert.RowNorm

open Idealize.ShloMosaic Idealize.ShloMosaic.ValueIdx

/-- The row length 128 as a float word. -/
def len : EReal := Ideal.ofBits .f32 0x43000000#32
/-- The constant added to the mean square before the reciprocal square root. -/
def eps : EReal := Ideal.ofBits .f32 0x3727C5AC#32
/-- The factor applied to an entry that is not `≥ 0`. -/
def slope : EReal := Ideal.ofBits .f32 0x3E4CCCCD#32
/-- The zero the rectifier compares with. -/
def zero : EReal := Ideal.ofBits .f32 0x00000000#32

/-- The affine image of a row: entry `o` contracts the row with row `o` of the matrix, then adds `b o`. -/
def lin (xr : Fin 128 → EReal) (W : Fin 128 → Fin 128 → EReal) (b : Fin 128 → EReal) (o : Fin 128) : EReal :=
  (∑ k : Fin 128, xr k * W o k) + b o

/-- The mean of a row: its sum divided by the row length. -/
def mean (h : Fin 128 → EReal) : EReal := Ideal.div (∑ k : Fin 128, h k) len

/-- A row centred on its mean. -/
def cen (h : Fin 128 → EReal) (o : Fin 128) : EReal := h o - mean h

/-- The scale of a centred row: the reciprocal square root of its mean square plus `eps`. -/
def scale (c : Fin 128 → EReal) : EReal := Ideal.rsqrt (mean (fun k => c k * c k) + eps)

/-- The centred row scaled, multiplied entry by entry by `g` and shifted by `be`. -/
def norm (c g be : Fin 128 → EReal) (o : Fin 128) : EReal := c o * scale c * g o + be o

/-- The leaky rectifier: `l` where `l ≥ 0`, `slope · l` elsewhere. -/
def leaky (l : EReal) : EReal := Scalar.select (Ideal.cmp .oge l zero) l (slope * l)

/-- One row's result at entry `o`. -/
def out (xr : Fin 128 → EReal) (W : Fin 128 → Fin 128 → EReal) (b g be : Fin 128 → EReal) (o : Fin 128) : EReal :=
  leaky (norm (cen (lin xr W b)) g be o)

/-- The map applied to every row of an `[N, 128]` array, with the matrix `[128, 128]` and the three vectors `[128]`
    given as arrays: entry (n, o). -/
def rowsAt {N : Nat} (X : (⟨2, ![N, 128]⟩ : Shape).Idx → EReal) (W : (⟨2, ![128, 128]⟩ : Shape).Idx → EReal)
    (b g be : (⟨1, ![128]⟩ : Shape).Idx → EReal) (n : Fin N) (o : Fin 128) : EReal :=
  out (fun k => X (ix2 n k)) (fun o' k => W (ix2 o' k)) (fun o' => b (ix1 o')) (fun o' => g (ix1 o')) (fun o' => be (ix1 o')) o

/-- The whole result array. -/
def rows {N : Nat} (X : (⟨2, ![N, 128]⟩ : Shape).Idx → EReal) (W : (⟨2, ![128, 128]⟩ : Shape).Idx → EReal)
    (b g be : (⟨1, ![128]⟩ : Shape).Idx → EReal) : (⟨2, ![N, 128]⟩ : Shape).Idx → EReal :=
  fun i => rowsAt X W b g be (i 0) (i 1)

end Cert.RowNorm

end
-- ==== Proof.KernelBlock.lean ====
/-
  The kernel body's stored value, read at one entry.

  At a grid point the body holds a block of 5000 rows of the input, the whole weight matrix, and the bias, gain and
  shift as single rows `[1, 128]`. Its one store writes a `[5000, 128]` value computed in six steps, each named
  here as a function of whole vectors: the affine image (a matrix product against the weight matrix's rows, into the
  zero accumulator, plus the bias row laid under every row); each row's mean as a column; the rows centred; the
  reciprocal square root of each centred row's mean square plus the small constant, as a column; the scaled rows
  times the gain row plus the shift row; and the leaky rectifier entry by entry. `stored_eq` says the body's value
  IS that composition. Each step is then read at an entry (p, q): a row sum is the sum over the 128 columns, a
  column laid across a row block is read in the entry's row, a row laid under a block in the entry's column, the
  matrix product at (p, q) contracts row p of the left operand with row q of the right; a change of float format is
  the identity on the extended reals. Put together, entry (p, q) of the stored value is the one-row map
  `RowNorm.out` of row p of the input block, at entry q.
-/
import proofs.«152808_j49752901157256_1_alg».proof.Proof.Gen.KernelIdeal.Skeleton
import proofs.«152808_j49752901157256_1_alg».proof.Proof.LibTransposedRhsDot
import proofs.«152808_j49752901157256_1_alg».proof.Proof.LibKeepdims
import proofs.«152808_j49752901157256_1_alg».proof.Proof.RowNorm
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The six steps, as functions of whole vectors -/

/-- The affine image of a row block: the product with the weight matrix's rows, plus the bias row under every row. -/
def affine (x0 : FVec Ideal S5000x128 .f32) (w : FVec Ideal S128x128 .bf16) (b : FVec Ideal S1x128 .f32) : FVec Ideal S5000x128 .f32 :=
  addf (matmul dot_S5000x128_S128x128_S5000x128_1_1_0_0_n_n none (truncf .bf16 x0 bitsLt_bf16_f32)
      (shapeCast S128x128 w shapeCasts_S128x128_S128x128) (constant S5000x128 .f32 0x00000000#32))
    (broadcastTo S5000x128 (shapeCast S1x128 b shapeCasts_S1x128_S1x128) broadcasts_S1x128_S5000x128)

/-- Each row's mean, as a column. -/
def meanCol (h : FVec Ideal S5000x128 .f32) : FVec Ideal S5000x1 .f32 :=
  divf (shapeCast S5000x1 (multiReduction .add [1] S5000 h 0x00000000#32 reduces_S5000x128_S5000 (.inl rfl) rfl) shapeCasts_S5000_S5000x1)
    (broadcast S5000x1 (Scalar.ofBits .f32 0x43000000#32))

/-- The rows centred on their means. -/
def centred (h : FVec Ideal S5000x128 .f32) : FVec Ideal S5000x128 .f32 :=
  subf h (broadcastTo S5000x128 (meanCol h) broadcasts_S5000x1_S5000x128)

/-- Each centred row's scale, as a column. -/
def scaleCol (c : FVec Ideal S5000x128 .f32) : FVec Ideal S5000x1 .f32 :=
  rsqrt (addf (meanCol (mulf c c)) (broadcast S5000x1 (Scalar.ofBits .f32 0x3727C5AC#32)))

/-- The centred rows scaled, times the gain row, plus the shift row. -/
def normed (c : FVec Ideal S5000x128 .f32) (g be : FVec Ideal S1x128 .f32) : FVec Ideal S5000x128 .f32 :=
  addf (mulf (mulf c (broadcastTo S5000x128 (scaleCol c) broadcasts_S5000x1_S5000x128))
      (broadcastTo S5000x128 (shapeCast S1x128 g shapeCasts_S1x128_S1x128) broadcasts_S1x128_S5000x128))
    (broadcastTo S5000x128 (shapeCast S1x128 be shapeCasts_S1x128_S1x128) broadcasts_S1x128_S5000x128)

/-- The leaky rectifier, entry by entry. -/
def rectified (l : FVec Ideal S5000x128 .f32) : FVec Ideal S5000x128 .f32 :=
  select (cmpf .oge l (broadcast S5000x128 (Scalar.ofBits .f32 0x00000000#32))) l
    (mulf (broadcast S5000x128 (Scalar.ofBits .f32 0x3E4CCCCD#32)) l)

/-- The body's stored value is the six steps composed. -/
theorem stored_eq (x0 : Vec Ideal S5000x128 .f32) (w : Vec Ideal S128x128 .bf16) (b g be : Vec Ideal S1x128 .f32) :
    k0_pay1 (F := Ideal) x0 w b g be = rectified (normed (centred (affine x0 w b)) g be) := rfl

/-! ## Each step at an entry -/

/-- Entry (p, q) of the affine image: row p of the block against row q of the matrix, plus entry q of the bias row. -/
theorem affine_apply (x0 : FVec Ideal S5000x128 .f32) (w : FVec Ideal S128x128 .bf16) (b : FVec Ideal S1x128 .f32)
    (p : Fin 5000) (q : Fin 128) :
    affine x0 w b (ix2 p q)
      = RowNorm.lin (fun k => x0 (ix2 p k)) (fun o k => w (ix2 o k)) (fun o => b (ix2 (0 : Fin 1) o)) q := by
  unfold affine
  rw [shapeCast_self, shapeCast_self, addf_apply, broadcastTo_1b_ab_apply]
  refine congrArg (· + _) ?_
  exact TransposedRhsDot.matmul_zero_apply _ rfl none _ _ _

/-- Lifting a row number to the index with column k: the entry (p, k). -/
theorem lift_row (hr : S5000x128.Reduces [1] S5000) (p : Fin 5000) (k : Fin 128) : hr.lift (ix1 p) k = ix2 p k :=
  funext fun c => Fin.ext (by match c with | ⟨0, _⟩ => rfl | ⟨1, _⟩ => rfl)

/-- A sum along the columns, at row p: the sum over the 128 columns. -/
theorem rowsum_apply (h : FVec Ideal S5000x128 .f32) (hr : S5000x128.Reduces [1] S5000) (hφ : FKind.Formats FTy.f32)
    (hacc : (0x00000000#32 : BitVec 32) = 0x00000000#32) (p : Fin 5000) :
    multiReduction .add [1] S5000 h 0x00000000#32 hr hφ hacc (ix1 p) = ∑ k : Fin 128, h (ix2 p k) := by
  refine (Ideal.multiReduction_add_single h 0x00000000#32 hr hφ hacc (ix1 p)).trans ?_
  exact Finset.sum_congr rfl fun k _ => congrArg h (lift_row hr p k)

/-- The mean column at row p is the mean of row p. -/
theorem meanCol_apply (h : FVec Ideal S5000x128 .f32) (p : Fin 5000) (u : Fin 1) :
    meanCol h (ix2 p u) = RowNorm.mean (fun k => h (ix2 p k)) := by
  unfold meanCol
  rw [divf_apply, Cert.Keepdims.shapeCast_a_a1_apply, rowsum_apply]
  rfl

/-- Entry (p, q) of the centred rows. -/
theorem centred_apply (h : FVec Ideal S5000x128 .f32) (p : Fin 5000) (q : Fin 128) :
    centred h (ix2 p q) = RowNorm.cen (fun k => h (ix2 p k)) q := by
  unfold centred
  rw [subf_apply, Cert.Keepdims.broadcastTo_a1_ab_apply, meanCol_apply]
  rfl

/-- The scale column at row p is the scale of row p. -/
theorem scaleCol_apply (c : FVec Ideal S5000x128 .f32) (p : Fin 5000) (u : Fin 1) :
    scaleCol c (ix2 p u) = RowNorm.scale (fun k => c (ix2 p k)) := by
  unfold scaleCol
  show Ideal.rsqrt (meanCol (mulf c c) (ix2 p u) + _) = _
  rw [meanCol_apply]
  rfl

/-- Entry (p, q) of the normalised rows. -/
theorem normed_apply (c : FVec Ideal S5000x128 .f32) (g be : FVec Ideal S1x128 .f32) (p : Fin 5000) (q : Fin 128) :
    normed c g be (ix2 p q)
      = RowNorm.norm (fun k => c (ix2 p k)) (fun o => g (ix2 (0 : Fin 1) o)) (fun o => be (ix2 (0 : Fin 1) o)) q := by
  unfold normed
  rw [shapeCast_self, shapeCast_self, addf_apply, mulf_apply, mulf_apply, Cert.Keepdims.broadcastTo_a1_ab_apply,
    broadcastTo_1b_ab_apply, broadcastTo_1b_ab_apply, scaleCol_apply]
  rfl

/-- An entry of the rectified value. -/
theorem rectified_apply (l : FVec Ideal S5000x128 .f32) (i : S5000x128.Idx) : rectified l i = RowNorm.leaky (l i) := rfl

/-! ## The stored value at an entry -/

/-- Entry (p, q) of what the body stores is the one-row map of row p of the input block, at q, with the matrix
    read by rows and the three parameter rows read in their one row. -/
theorem stored_apply (x0 : Vec Ideal S5000x128 .f32) (w : Vec Ideal S128x128 .bf16) (b g be : Vec Ideal S1x128 .f32)
    (p : Fin 5000) (q : Fin 128) :
    k0_pay1 (F := Ideal) x0 w b g be (ix2 p q)
      = RowNorm.out (fun k => x0 (ix2 p k)) (fun o k => w (ix2 o k)) (fun o => b (ix2 (0 : Fin 1) o))
          (fun o => g (ix2 (0 : Fin 1) o)) (fun o => be (ix2 (0 : Fin 1) o)) q := by
  rw [stored_eq, rectified_apply, normed_apply]
  have hc : (fun k => centred (affine x0 w b) (ix2 p k))
      = RowNorm.cen (RowNorm.lin (fun k => x0 (ix2 p k)) (fun o k => w (ix2 o k)) (fun o => b (ix2 (0 : Fin 1) o))) := by
    funext k
    rw [centred_apply]
    exact congrArg (fun f => RowNorm.cen f k) (funext fun k' => affine_apply x0 w b p k')
  rw [hc]
  rfl

end Cert.KernelIdeal.Block

end
-- ==== Proof.KernelRows.lean ====
/-
  The kernel's result array after the run: the one-row map applied to every row of the input.

  The grid has 200 points; at point t the input window holds rows 5000·t … 5000·t + 4999 of the input (all 128
  columns), the output window the same rows of the result, and the four parameter windows always their whole
  arrays: the weight matrix as the host converted it (a change of float format, the identity on the extended
  reals) and the bias, gain and shift reshaped from `[128]` to one row `[1, 128]`. So entry (p, q) of what point t
  writes back is the one-row map of input row 5000·t + p at q, which is entry (5000·t + p, q) of `RowNorm.rows`
  of the arguments: the block written back at t is block t of that array. Every row n lies in the block of point
  n / 5000, so the blocks cover the result array, and the array after the run is `RowNorm.rows` of the arguments.
-/
import proofs.«152808_j49752901157256_1_alg».proof.Proof.Gen.KernelIdeal.Value
import proofs.«152808_j49752901157256_1_alg».proof.Proof.KernelBlock
import Idealize.ShloMosaic.Lib.StableHlo.Run
import Idealize.ShloMosaic.Lib.ValueLayout

noncomputable section

namespace Cert.KernelIdeal.Rows

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The result: the one-row map on every row of the input argument, with the weight, bias, gain and shift arguments. -/
def result (c : Dev nD) : S1000000x128.Idx → EReal :=
  RowNorm.rows (m ((c : Thread nD τ).loc main_arg0)) (m ((c : Thread nD τ).loc main_arg2)) (m ((c : Thread nD τ).loc main_arg3))
    (m ((c : Thread nD τ).loc main_arg4)) (m ((c : Thread nD τ).loc main_arg5))

/-! ## The arrays the windows stage, as the region finds them -/

/-- The converted weight matrix holds the weight argument's values. -/
theorem weights (c : Dev nD) : (V m c main_v0 : S128x128.Idx → EReal) = (m ((c : Thread nD τ).loc main_arg2) : S128x128.Idx → EReal) := by
  dsimp only [V, hostOps0]
  after_results
  rfl

/-- The bias as one row. -/
theorem bias_row (c : Dev nD) : (V m c main_v1 : S1x128.Idx → EReal)
    = shapeCast S1x128 (m ((c : Thread nD τ).loc main_arg3) : S128.Idx → EReal) shapeCasts_S128_S1x128 := by
  dsimp only [V, hostOps0]
  after_results
  rfl

/-- The gain as one row. -/
theorem gain_row (c : Dev nD) : (V m c main_v2 : S1x128.Idx → EReal)
    = shapeCast S1x128 (m ((c : Thread nD τ).loc main_arg4) : S128.Idx → EReal) shapeCasts_S128_S1x128 := by
  dsimp only [V, hostOps0]
  after_results
  rfl

/-- The shift as one row. -/
theorem shift_row (c : Dev nD) : (V m c main_v3 : S1x128.Idx → EReal)
    = shapeCast S1x128 (m ((c : Thread nD τ).loc main_arg5) : S128.Idx → EReal) shapeCasts_S128_S1x128 := by
  dsimp only [V, hostOps0]
  after_results
  rfl

/-! ## The windows' blocks at a point -/

theorem hz : (![0, 0] : Fin 2 → Nat) = fun _ => 0 := funext fun a => by fin_cases a <;> rfl

/-- The printed index maps over the grid: the input and output windows move down one block of rows per point,
    the parameter windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 200 := lt_of_lt_of_eq t.isLt N_0

/-- Row p of point t's block is row 5000·t + p of the array. -/
def rowAt (t : Fin cfg0.N) (p : Fin 5000) : Fin 1000000 := ⟨t.val * 5000 + p.val, by have := point_lt t; have := p.isLt; omega⟩

/-- The input window's block at point t, entry (p, k): the input argument at (5000·t + p, k). -/
theorem in_block (c : Dev nD) (t : Fin cfg0.N) (p : Fin 5000) (k : Fin 128) :
    (iblk m c 0 t : Vec Ideal S5000x128 .f32) (ix2 p k)
      = (m ((c : Thread nD τ).loc main_arg0) : S1000000x128.Idx → EReal) (ix2 (rowAt t p) k) := by
  obtain ⟨e0, e1, -⟩ := idx_facts t
  unfold iblk
  rw [View.read_apply]
  show V m c main_arg0 _ = _
  rw [V_main_arg0]
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * k.val = k.val; rw [e1]; omega

/-- The weight window's block at any point, entry (o, k): the weight argument at (o, k). -/
theorem w_block (c : Dev nD) (t : Fin cfg0.N) (o k : Fin 128) :
    (iblk m c 1 t : Vec Ideal S128x128 .bf16) (ix2 o k) = (m ((c : Thread nD τ).loc main_arg2) : S128x128.Idx → EReal) (ix2 o k) := by
  obtain ⟨-, -, e0, e1, -⟩ := idx_facts t
  unfold iblk
  rw [View.read_apply]
  show V m c main_v0 _ = _
  rw [weights]
  congr 1
  funext a
  apply Fin.ext
  match a with
  | ⟨0, _⟩ => show win0_1.index t (0 : Fin 2) * 128 + 1 * o.val = o.val; rw [e0]; omega
  | ⟨1, _⟩ => show win0_1.index t (1 : Fin 2) * 128 + 1 * k.val = k.val; rw [e1]; omega

/-- A `[128]` vector as one row, read at (0, o), is the vector at o. -/
theorem row_apply (v : S128.Idx → EReal) (h : S128.ShapeCasts S1x128) (o : Fin 128) :
    shapeCast S1x128 v h (ix2 (0 : Fin 1) o) = v (ix1 o) := shapeCast_a_1a_apply v h 0 o

/-- The bias window's block at any point, entry (0, o): the bias argument at o. -/
theorem b_block (c : Dev nD) (t : Fin cfg0.N) (o : Fin 128) :
    (iblk m c 2 t : Vec Ideal S1x128 .f32) (ix2 (0 : Fin 1) o) = (m ((c : Thread nD τ).loc main_arg3) : S128.Idx → EReal) (ix1 o) := by
  obtain ⟨-, -, -, -, e0, e1, -⟩ := idx_facts t
  unfold iblk
  rw [View.read_apply]
  show V m c main_v1 _ = _
  rw [bias_row]
  refine Eq.trans ?_ (row_apply (m ((c : Thread nD τ).loc main_arg3)) shapeCasts_S128_S1x128 o)
  congr 1
  funext a
  apply Fin.ext
  match a with
  | ⟨0, _⟩ => show win0_2.index t (0 : Fin 2) * 1 + 1 * 0 = 0; rw [e0]
  | ⟨1, _⟩ => show win0_2.index t (1 : Fin 2) * 128 + 1 * o.val = o.val; rw [e1]; omega

/-- The gain window's block at any point, entry (0, o): the gain argument at o. -/
theorem g_block (c : Dev nD) (t : Fin cfg0.N) (o : Fin 128) :
    (iblk m c 3 t : Vec Ideal S1x128 .f32) (ix2 (0 : Fin 1) o) = (m ((c : Thread nD τ).loc main_arg4) : S128.Idx → EReal) (ix1 o) := by
  obtain ⟨-, -, -, -, -, -, e0, e1, -⟩ := idx_facts t
  unfold iblk
  rw [View.read_apply]
  show V m c main_v2 _ = _
  rw [gain_row]
  refine Eq.trans ?_ (row_apply (m ((c : Thread nD τ).loc main_arg4)) shapeCasts_S128_S1x128 o)
  congr 1
  funext a
  apply Fin.ext
  match a with
  | ⟨0, _⟩ => show win0_3.index t (0 : Fin 2) * 1 + 1 * 0 = 0; rw [e0]
  | ⟨1, _⟩ => show win0_3.index t (1 : Fin 2) * 128 + 1 * o.val = o.val; rw [e1]; omega

/-- The shift window's block at any point, entry (0, o): the shift argument at o. -/
theorem s_block (c : Dev nD) (t : Fin cfg0.N) (o : Fin 128) :
    (iblk m c 4 t : Vec Ideal S1x128 .f32) (ix2 (0 : Fin 1) o) = (m ((c : Thread nD τ).loc main_arg5) : S128.Idx → EReal) (ix1 o) := by
  obtain ⟨-, -, -, -, -, -, -, -, e0, e1, -⟩ := idx_facts t
  unfold iblk
  rw [View.read_apply]
  show V m c main_v3 _ = _
  rw [shift_row]
  refine Eq.trans ?_ (row_apply (m ((c : Thread nD τ).loc main_arg5)) shapeCasts_S128_S1x128 o)
  congr 1
  funext a
  apply Fin.ext
  match a with
  | ⟨0, _⟩ => show win0_4.index t (0 : Fin 2) * 1 + 1 * 0 = 0; rw [e0]
  | ⟨1, _⟩ => show win0_4.index t (1 : Fin 2) * 128 + 1 * o.val = o.val; rw [e1]; omega

/-! ## What a point writes back -/

/-- Entry (p, q) of the output window's block at point t sits at (5000·t + p, q) of the result array. -/
theorem out_emb (t : Fin cfg0.N) (p : Fin 5000) (q : Fin 128) :
    ((cfg0.win 5).blk t).view.emb (ix2 p q) = (ix2 (rowAt t p) q : S1000000x128.Idx) := by
  obtain ⟨-, -, -, -, -, -, -, -, -, -, e0, e1⟩ := idx_facts t
  funext a
  apply Fin.ext
  match a with
  | ⟨0, _⟩ => show win0_5.index t (0 : Fin 2) * 5000 + 1 * p.val = t.val * 5000 + p.val; rw [e0]; omega
  | ⟨1, _⟩ => show win0_5.index t (1 : Fin 2) * 128 + 1 * q.val = q.val; rw [e1]; omega

/-- WHAT POINT t WRITES BACK is block t of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show k0_pay1 (F := Ideal) (iblk m c 0 t) (iblk m c 1 t) (iblk m c 2 t) (iblk m c 3 t) (iblk m c 4 t) (ix2 p q)
    = result m c (((cfg0.win 5).blk t).view.emb (ix2 p q))
  rw [out_emb]
  refine (Block.stored_apply (iblk m c 0 t) (iblk m c 1 t) (iblk m c 2 t) (iblk m c 3 t) (iblk m c 4 t) p q).trans ?_
  rw [funext fun k => in_block m c t p k, funext fun o => funext fun k => w_block m c t o k, funext fun o => b_block m c t o,
    funext fun o => g_block m c t o, funext fun o => s_block m c t o]
  rfl

/-! ## The blocks cover the array -/

/-- An index of the array is in point t's block iff each coordinate is in the block's range on its axis. -/
theorem mem_blk (t : Fin cfg0.N) (i : S1000000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v4).slice (win0_5.rect t)).set ↔ _
  rw [View.set_slice_whole, Rect.mem_set_unit]
  exact Iff.rfl

/-- Row n is in the block of point n / 5000. -/
theorem covered (i : S1000000x128.Idx) : ∃ t : Fin cfg0.N, (cfg0.win 5).flush t = true ∧ i ∈ ((cfg0.win 5).blk t).view.set := by
  have h0 : (i 0).val < 1000000 := (i 0).isLt
  have h1 : (i 1).val < 128 := (i 1).isLt
  have hN : cfg0.N = 200 := N_0
  let t : Fin cfg0.N := ⟨(i 0).val / 5000, by rw [hN]; omega⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0]
    show (i 0).val / 5000 * 5000 ≤ (i 0).val ∧ (i 0).val < (i 0).val / 5000 * 5000 + 5000
    omega
  | ⟨1, _⟩ =>
    show win0_5.index t (1 : Fin 2) * 128 ≤ (i 1).val ∧ (i 1).val < win0_5.index t (1 : Fin 2) * 128 + 128
    rw [e1]
    omega

/-- THE ARRAY after the run is `result`. -/
theorem final (c : Dev nD) : (dats m 0 c).arrAt 5 cfg0.N = result m c :=
  (dats m 0 c).arrAt_eq_of_cover 5 (result m c) (fun t _ => flushed_eq m c t) covered

/-! ## The run, read -/

/-- The frame run re-posted: the result array at `result`, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (run_blocks m ρ)

end Cert.KernelIdeal.Rows

end
-- ==== Proof.RefRows.lean ====
/-
  The reference's result, read at one entry.

  The reference computes the same one-row map on the whole `[1000000, 128]` array at once: a product of the input
  with the weight matrix contracted along the second axis of both (so entry (n, o) contracts row n of the input
  with row o of the matrix), the bias laid under every row, each row's sum divided by 128, the rows centred, the
  centred rows' squares summed and divided by 128, the small constant added, the reciprocal square root, the gain
  and the shift laid under every row, and the leaky rectifier as a selection between the value and its product
  with the slope. Every operation's result is read at an entry from its operands at an entry (the generated
  read-at-an-index lemmas); the indices those lemmas compute are identified here with plain coordinates, and a
  row sum's initial value is the real 0. Put together, entry (n, o) of the reference's result is the one-row map
  `RowNorm.out` of row n of the input, at entry o.
-/
import proofs.«152808_j49752901157256_1_alg».proof.Proof.Gen.ReferenceIdeal.Read
import proofs.«152808_j49752901157256_1_alg».proof.Proof.RowNorm
import Idealize.ShloMosaic.PureOps.Ideal.Laws

noncomputable section

namespace Cert.ReferenceIdeal.Rows

open Cert.ReferenceIdeal Cert.ReferenceIdeal.Read Idealize.ShloMosaic Idealize.ShloMosaic.ValueIdx

variable (X : (⟨S1000000x128, .f32⟩ : BufTy).Contents (Elt Ideal)) (W : (⟨S128x128, .f32⟩ : BufTy).Contents (Elt Ideal))
  (b g be : (⟨S128, .f32⟩ : BufTy).Contents (Elt Ideal))

/-! ## The computed indices, by coordinates -/

theorem left_idx (n : Fin 1000000) (o k : Fin 128) : lidx_main_v0 (ix2 n o) k = ix2 n k :=
  funext fun a => Fin.ext (by match a with | ⟨0, _⟩ => rfl | ⟨1, _⟩ => rfl)
theorem right_idx (n : Fin 1000000) (o k : Fin 128) : ridx_main_v0 (ix2 n o) k = ix2 o k :=
  funext fun a => Fin.ext (by match a with | ⟨0, _⟩ => rfl | ⟨1, _⟩ => rfl)
theorem row_idx (n : Fin 1000000) (o : Fin 128) : idx_main_v2 (ix2 n o) = ix2 (0 : Fin 1) o :=
  funext fun a => Fin.ext (by match a with | ⟨0, _⟩ => rfl | ⟨1, _⟩ => rfl)
theorem vec_idx (u : Fin 1) (o : Fin 128) : idx_main_v1 (ix2 u o) = ix1 o :=
  funext fun a => Fin.ext (by match a with | ⟨0, _⟩ => rfl)
theorem sum_idx (n : Fin 1000000) (k : Fin 128) : idx_main_v4 (ix1 n) k = ix2 n k :=
  funext fun a => Fin.ext (by match a with | ⟨0, _⟩ => rfl | ⟨1, _⟩ => rfl)
theorem col_idx (n : Fin 1000000) (u : Fin 1) : idx_main_v5 (ix2 n u) = ix1 n :=
  funext fun a => Fin.ext (by match a with | ⟨0, _⟩ => rfl)
theorem keep_idx (n : Fin 1000000) (o : Fin 128) : idx_main_v8 (ix2 n o) = ix2 n (0 : Fin 1) :=
  funext fun a => Fin.ext (by match a with | ⟨0, _⟩ => rfl | ⟨1, _⟩ => rfl)

/-! ## The stages at an entry -/

/-- The affine image at (n, o). -/
theorem affine_apply (n : Fin 1000000) (o : Fin 128) :
    val_main_v3 (F := Ideal) X W b (ix2 n o)
      = RowNorm.lin (fun k => X (ix2 n k)) (fun o' k => W (ix2 o' k)) (fun o' => b (ix1 o')) o := by
  rw [val_main_v3_apply, val_main_v0_apply, val_main_v2_apply, val_main_v1_apply, row_idx, vec_idx]
  simp only [left_idx, right_idx]
  rfl

/-- The first row sum at row n. -/
theorem sum1_apply (n : Fin 1000000) :
    val_main_v4 (F := Ideal) X W b (ix1 n) = ∑ k : Fin 128, val_main_v3 (F := Ideal) X W b (ix2 n k) := by
  rw [val_main_v4_apply, val_main_cst_apply, Ideal.ofBits_def, Ideal.ofBits_zero_f32, zero_add]
  simp only [sum_idx]

/-- The mean column at row n is the mean of the affine image's row n. -/
theorem mean_apply (n : Fin 1000000) (u : Fin 1) :
    val_main_v7 (F := Ideal) X W b (ix2 n u) = RowNorm.mean (fun k => val_main_v3 (F := Ideal) X W b (ix2 n k)) := by
  rw [val_main_v7_apply, val_main_v5_apply, val_main_v6_apply, val_main_cst_0_apply, col_idx, sum1_apply]
  rfl

/-- The centred rows at (n, o), in the form the squares are taken of. -/
theorem centred_apply (n : Fin 1000000) (o : Fin 128) :
    val_main_v9 (F := Ideal) X W b (ix2 n o) = RowNorm.cen (fun k => val_main_v3 (F := Ideal) X W b (ix2 n k)) o := by
  rw [val_main_v9_apply, val_main_v8_apply, keep_idx, mean_apply]
  rfl

/-- The centred rows at (n, o), in the form the scale multiplies: the same value. -/
theorem centred'_apply (n : Fin 1000000) (o : Fin 128) :
    val_main_v16 (F := Ideal) X W b (ix2 n o) = RowNorm.cen (fun k => val_main_v3 (F := Ideal) X W b (ix2 n k)) o := by
  rw [val_main_v16_apply, val_main_v15_apply]
  rw [show idx_main_v15 (ix2 n o) = ix2 n (0 : Fin 1) from keep_idx n o, mean_apply]
  rfl

/-- The second row sum at row n: the centred row's squares. -/
theorem sum2_apply (n : Fin 1000000) :
    val_main_v11 (F := Ideal) X W b (ix1 n)
      = ∑ k : Fin 128, val_main_v9 (F := Ideal) X W b (ix2 n k) * val_main_v9 (F := Ideal) X W b (ix2 n k) := by
  rw [val_main_v11_apply, val_main_cst_1_apply, Ideal.ofBits_def, Ideal.ofBits_zero_f32, zero_add]
  refine Finset.sum_congr rfl fun k _ => ?_
  rw [show idx_main_v11 (ix1 n) k = ix2 n k from sum_idx n k, val_main_v10_apply]
  rfl

/-- The scale column at row n is the scale of the centred row n. -/
theorem scale_apply (n : Fin 1000000) (u : Fin 1) :
    val_main_v19 (F := Ideal) X W b (ix2 n u) = RowNorm.scale (fun k => val_main_v9 (F := Ideal) X W b (ix2 n k)) := by
  rw [val_main_v19_apply, val_main_v18_apply, val_main_v14_apply, val_main_v12_apply, val_main_v13_apply,
    val_main_cst_2_apply, val_main_v17_apply, val_main_cst_3_apply]
  rw [show idx_main_v12 (ix2 n u) = ix1 n from col_idx n u, sum2_apply]
  rfl

/-- The normalised rows at (n, o). -/
theorem normed_apply (n : Fin 1000000) (o : Fin 128) :
    val_main_v27 (F := Ideal) X W b g be (ix2 n o)
      = RowNorm.norm (fun k => val_main_v9 (F := Ideal) X W b (ix2 n k)) (fun o' => g (ix1 o')) (fun o' => be (ix1 o')) o := by
  rw [val_main_v27_apply, val_main_v24_apply, val_main_v21_apply, val_main_v20_apply, val_main_v23_apply, val_main_v22_apply,
    val_main_v26_apply, val_main_v25_apply, centred'_apply]
  rw [show idx_main_v20 (ix2 n o) = ix2 n (0 : Fin 1) from keep_idx n o, scale_apply,
    show idx_main_v23 (ix2 n o) = ix2 (0 : Fin 1) o from row_idx n o, show idx_main_v26 (ix2 n o) = ix2 (0 : Fin 1) o from row_idx n o,
    show idx_main_v22 (ix2 (0 : Fin 1) o) = ix1 o from vec_idx 0 o, show idx_main_v25 (ix2 (0 : Fin 1) o) = ix1 o from vec_idx 0 o]
  have hc : (fun k => val_main_v9 (F := Ideal) X W b (ix2 n k)) = RowNorm.cen (fun k => val_main_v3 (F := Ideal) X W b (ix2 n k)) :=
    funext fun k => centred_apply X W b n k
  rw [hc]
  rfl

/-- The result at (n, o): the leaky rectifier of the normalised entry. -/
theorem result_apply (n : Fin 1000000) (o : Fin 128) :
    val_main_v32 (F := Ideal) X W b g be (ix2 n o) = RowNorm.rowsAt X W b g be n o := by
  rw [val_main_v32_apply, val_main_v29_apply, val_main_v31_apply, val_main_v28_apply, val_main_v30_apply,
    val_main_cst_4_apply, val_main_cst_5_apply, normed_apply]
  have hc : (fun k => val_main_v9 (F := Ideal) X W b (ix2 n k))
      = RowNorm.cen (RowNorm.lin (fun k => X (ix2 n k)) (fun o' k => W (ix2 o' k)) (fun o' => b (ix1 o'))) := by
    funext k
    rw [centred_apply]
    exact congrArg (fun f => RowNorm.cen f k) (funext fun k' => affine_apply X W b n k')
  rw [hc]
  rfl

/-- The reference's result array is the one-row map applied to every row. -/
theorem result_eq : val_main_v32 (F := Ideal) X W b g be = RowNorm.rows X W b g be := by
  funext i
  obtain ⟨n, o, rfl⟩ : ∃ (n : Fin 1000000) (o : Fin 128), i = ix2 n o := ⟨i 0, i 1, eq_ix2 i⟩
  exact result_apply X W b g be n o

end Cert.ReferenceIdeal.Rows

end
-- ==== Proof.lean ====
/-
  A row-wise linear layer, normalisation and leaky rectifier, as a tiled kernel and as whole-array host operations:
  the two compute the same array on the extended reals.

  Both programs send every row x of the `[1000000, 128]` input to
      h = x · Wᵀ + b,   c = h − mean(h),   l = c · rsqrt(mean(c²) + ε) · γ + β,   result = l where l ≥ 0, 0.2 · l elsewhere,
  with the means over the 128 entries of the row; the integer argument takes no part. The kernel does it on 200
  blocks of 5000 rows, converting the input block and the weight matrix to a shorter float format before the
  product (the identity on the extended reals) and accumulating the product into zero; the reference does it on
  the whole array at once. Neither reorders any arithmetic: the same operations in the same order, the same
  float words for 128, ε, 0.2 and 0; a kernel's product into the zero accumulator and the host's product, a
  kernel's lane sum and the host's sum from 0, the two quotients and the two reciprocal square roots are the same
  functions on the extended reals. So no law of arithmetic beyond 0 + s = s is used, and finiteness of the inputs
  is not needed.

  `RowNorm` states the one-row map and the array `rows` of it; `KernelBlock` reads the kernel body's stored value
  at an entry as that map of a block's row; `KernelRows` carries it through the 200 blocks to the whole result
  array after the kernel's run; `RefRows` reads the reference's result at an entry as the same map. Here the two
  runs are set side by side: both end with the result array at `rows` of the agreeing arguments.
  The three frames are the kernel's generated frames and the reference's run with the result dropped; the kernel's
  idealisation rewrote nothing, so `preserves` has nothing to state.
-/
import proofs.«152808_j49752901157256_1_alg».proof.Defs
import proofs.«152808_j49752901157256_1_alg».proof.Proof.Gen.Kernel
import proofs.«152808_j49752901157256_1_alg».proof.Proof.Gen.Kernel.Skeleton
import proofs.«152808_j49752901157256_1_alg».proof.Proof.Gen.Kernel.Launch
import proofs.«152808_j49752901157256_1_alg».proof.Proof.Gen.Kernel.Points
import proofs.«152808_j49752901157256_1_alg».proof.Proof.Gen.Kernel.Frame
import proofs.«152808_j49752901157256_1_alg».proof.Proof.Gen.KernelIdeal
import proofs.«152808_j49752901157256_1_alg».proof.Proof.Gen.KernelIdeal.Skeleton
import proofs.«152808_j49752901157256_1_alg».proof.Proof.Gen.KernelIdeal.Launch
import proofs.«152808_j49752901157256_1_alg».proof.Proof.Gen.KernelIdeal.Points
import proofs.«152808_j49752901157256_1_alg».proof.Proof.Gen.KernelIdeal.Frame
import proofs.«152808_j49752901157256_1_alg».proof.Proof.Gen.ReferenceIdeal
import proofs.«152808_j49752901157256_1_alg».proof.Proof.Gen.Pre_finite_inputs
import proofs.«152808_j49752901157256_1_alg».proof.Proof.Gen.KernelIdeal.Value
import proofs.«152808_j49752901157256_1_alg».proof.Proof.Gen.ReferenceIdeal.Run
import proofs.«152808_j49752901157256_1_alg».proof.Proof.Gen.ReferenceIdeal.Read
import proofs.«152808_j49752901157256_1_alg».proof.Proof.KernelRows
import proofs.«152808_j49752901157256_1_alg».proof.Proof.RefRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at `RowNorm.rows` of the
    input, weight, bias, gain and shift arguments. -/
theorem algebraic : Cert.algebraic_KernelIdeal_ReferenceIdeal := by
  intro m ρ m' ρ' _ hagree
  refine ⟨fun c => Cert.KernelIdeal.Rows.result m c, Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, Cert.ReferenceIdeal.Rows.result_eq]
  obtain ⟨h0, -, h2, h3, h4, h5⟩ := hagree c
  rw [h0, h2, h3, h4, h5]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
